-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S1024x1024 : Shape := ⟨2, ![1024, 1024]⟩
abbrev S32x1024x1024 : Shape := ⟨3, ![32, 1024, 1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn_part1 {F : FTy → Type} [FloatOps F] (main_v13 : IVec S_ 1) (main_v16 : IVec S32x1024x1024 1) : IVec S_ 1 :=
  let main_c_5 : IVec S_ 1 := constantI S_ 1 1#1
  let main_v17 : IVec S_ 1 := (fun x v => Host.reduce IntOp.andi x v reducesTo_S32x1024x1024_S_d0_1_2 h_S_) main_v16 main_c_5
  let main_v18 : IVec S_ 1 := andi main_v13 main_v17
  main_v18

def fn {F : FTy → Type} [FloatOps F] (main_arg0 : FVec F S32x1024 .f32) (main_arg1 : FVec F S1024x1024 .f32) (main_arg2 : FVec F S32x1024 .f32) (main_arg3 : FVec F S32x1024x1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S32x1024x1024 .f32 := Host.absf main_arg3
  let main_cst_4 : FVec F S_ .f32 := constant S_ .f32 0x7F800000#32
  let main_v15 : FVec F S32x1024x1024 .f32 := broadcastInDim S32x1024x1024 ![] bcast_S_S32x1024x1024 main_cst_4
  let main_v16 : IVec S32x1024x1024 1 := cmpf .olt main_v14 main_v15
  fn_part1 (F := F) main_v13 main_v16
-- ==== Kernel.lean ====
abbrev S32x1024 : Shape := ⟨2, ![32, 1024]⟩
abbrev S1024x1024 : Shape := ⟨2, ![1024, 1024]⟩
abbrev S32x1024x1024 : Shape := ⟨3, ![32, 1024, 1024]⟩
abbrev S32x128 : Shape := ⟨2, ![32, 128]⟩
abbrev S32x128x256 : Shape := ⟨3, ![32, 128, 256]⟩
abbrev S32x128x1 : Shape := ⟨3, ![32, 128, 1]⟩

abbrev nBuf : Space → Nat
  | .hbm => 7
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S32x1024, .f32⟩
  | .hbm, ⟨3, _⟩ => ⟨S32x1024x1024, .f32⟩
  | .hbm, ⟨4, _⟩ => ⟨S32x1024, .f32⟩
  | .hbm, ⟨5, _⟩ => ⟨S32x1024, .f32⟩
  | .hbm, ⟨6, _⟩ => ⟨S32x1024x1024, .f32⟩
  | .local _ .vmem, ⟨0, _⟩ => ⟨S32x1024, .f32⟩
  | .local _ .vmem, ⟨1, _⟩ => ⟨S1024x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x128, .f32⟩
  | .local _ .vmem, ⟨6, _⟩ => ⟨S32x128, .f32⟩
  | .local _ .vmem, ⟨7, _⟩ => ⟨S32x128x256, .f32⟩
  | .local _ .vmem, ⟨8, _⟩ => ⟨S32x128x256, .f32⟩
  | .local _ .vmem, ⟨9, _⟩ => ⟨S32x128x256, .f32⟩
  | .local _ .vmem, ⟨10, _⟩ => ⟨S32x128x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S32x1024_S32x1024_0_0 : ∀ a, (![0, 0] : Fin 2 → Nat) a + S32x1024.size a ≤ S32x1024.size a
  h_S32x1024 : 0 < S32x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S32x128_S32x128_0_0 : ∀ a, (![0, 0] : Fin 2 → Nat) a + S32x128.size a ≤ S32x128.size a
  h_S32x128 : 0 < S32x128.numel
  shapeCasts_S32x128_S32x128x1 : S32x128.ShapeCasts S32x128x1
  shapeCasts_S32x128x1_S32x128x1 : S32x128x1.ShapeCasts S32x128x1
  broadcasts_S32x128x1_S32x128x256 : S32x128x1.Broadcasts S32x128x256
  inb_S32x128x256_S32x128x256_0_0_0 : ∀ a, (![0, 0, 0] : Fin 3 → Nat) a + S32x128x256.size a ≤ S32x128x256.size a
  h_S32x128x256 : 0 < S32x128x256.numel
  dot_S32x1024_S1024x1024_S32x1024_1_0_0_1_n_n_wf : DotDims.WF S32x1024 S1024x1024 S32x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x1024.size a
  hwx0_2 : ∀ i : grid0.Coords, EltTy.bits .f32 = 32 ∨ (Rect.block (s := S32x1024) S32x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x1024.size a
  hwx0_3 : ∀ i : grid0.Coords, EltTy.bits .f32 = 32 ∨ (Rect.block (s := S32x1024) S32x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x1024.size a
  hwx0_4 : ∀ i : grid0.Coords, EltTy.bits .f32 = 32 ∨ (Rect.block (s := S32x1024) S32x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128.size a ≤ S32x1024.size a
  hwx1_0 : ∀ i : grid1.Coords, EltTy.bits .f32 = 32 ∨ (Rect.block (s := S32x1024) S32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128x256.size a ≤ S32x1024x1024.size a
  hwx1_1 : ∀ i : grid1.Coords, EltTy.bits .f32 = 32 ∨ (Rect.block (s := S32x1024x1024) S32x128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128x256.size a ≤ S32x1024x1024.size a
  hwx1_2 : ∀ i : grid1.Coords, EltTy.bits .f32 = 32 ∨ (Rect.block (s := S32x1024x1024) S32x128x256.size (cc1_transform_2 i) (hinb1_2 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S32x1024.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S32x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S32x128x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x1024 : Shape := ⟨2, ![32, 1024]⟩
abbrev S1024x1024 : Shape := ⟨2, ![1024, 1024]⟩
abbrev S32x1024x1024 : Shape := ⟨3, ![32, 1024, 1024]⟩
abbrev S_ : Shape := ⟨0, ![]⟩
abbrev S32x1024x1 : Shape := ⟨3, ![32, 1024, 1]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S32x1024, .f32⟩
  | .hbm, ⟨3, _⟩ => ⟨S32x1024x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32x1024x1024, .f32⟩
  | .hbm, ⟨12, _⟩ => ⟨S32x1024x1024, .f32⟩
  | .hbm, ⟨13, _⟩ => ⟨S32x1024x1, .f32⟩
  | .hbm, ⟨14, _⟩ => ⟨S32x1024x1024, .f32⟩
  | .hbm, ⟨15, _⟩ => ⟨S32x1024x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S32x1024 : S_.BroadcastsInDim S32x1024 (![] : Fin 0 → Fin S32x1024.rank)
  bcast_S_S32x1024x1024 : S_.BroadcastsInDim S32x1024x1024 (![] : Fin 0 → Fin S32x1024x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024_S1024x1024_S32x1024_1_0_0_1_n_n_wf : DotDims.WF S32x1024 S1024x1024 S32x1024 [1] [0] [0] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

class Facts : Prop extends Facts₀ where

variable [Facts]
-- ==== Proof.Cell.lean ====
/-
  One step of a leaky recurrent cell together with its eligibility trace, as functions of whole arrays.

  The cell holds a state `u` (32 × 1024), reads an input `x` (32 × 1024) through weights `W` (1024 × 1024) and carries a
  trace `E` (32 × 1024 × 1024). With the decay `β` — one binary32 word, the same in both programs, so it is never evaluated —
    `u'[b, j]   = β · u[b, j] + Σ_k x[b, k] · W[k, j]`      (the new state),
    `s[b, j]    = tanh (u'[b, j])`                          (the output),
    `E'[b, i, j] = β · E[b, i, j] + x[b, i]`                 (the new trace: the input repeated along the last axis).
  All arithmetic is on the extended reals. No law of arithmetic is needed to join the two programs (both add the decayed
  term to the product, in that order), so nothing here asks the inputs to be finite.
-/
import Idealize.ShloMosaic.PureOps.Ideal
import Idealize.ShloMosaic.Lib.ValueIdx

noncomputable section

namespace Cert.Cell

open Idealize.ShloMosaic Idealize.ShloMosaic.ValueIdx

/-- The shapes of the state (and of the input and the output), of the weights, and of the trace. -/
abbrev SState : Shape := ⟨2, ![32, 1024]⟩
abbrev SWeight : Shape := ⟨2, ![1024, 1024]⟩
abbrev STrace : Shape := ⟨3, ![32, 1024, 1024]⟩

/-- The decay `β`: the number the word `0x3F666666` denotes. -/
abbrev decay : Ideal .f32 := Ideal.ofBits .f32 0x3F666666#32

/-- The new state: at batch row `i 0` and unit `i 1`, the decayed old state plus that row of the input against that column
    of the weights. -/
def state (x : FVec Ideal SState .f32) (W : FVec Ideal SWeight .f32) (u : FVec Ideal SState .f32) : FVec Ideal SState .f32 :=
  fun i => decay * u i + ∑ k : Fin 1024, x (ix2 (i 0) k) * W (ix2 k (i 1))

/-- The output: the hyperbolic tangent of the new state, entry by entry. -/
def output (x : FVec Ideal SState .f32) (W : FVec Ideal SWeight .f32) (u : FVec Ideal SState .f32) : FVec Ideal SState .f32 :=
  fun i => Ideal.tanh (state x W u i)

/-- The new trace: at `(b, i, j)` the decayed old trace plus the input at `(b, i)`, whatever `j`. -/
def trace (x : FVec Ideal SState .f32) (E : FVec Ideal STrace .f32) : FVec Ideal STrace .f32 :=
  fun y => decay * E y + x (ix2 (y 0) (y 1))

/-- The new state read by coordinates. -/
theorem state_ix2 (x : FVec Ideal SState .f32) (W : FVec Ideal SWeight .f32) (u : FVec Ideal SState .f32) (b : Fin 32) (j : Fin 1024) :
    state x W u (ix2 b j) = decay * u (ix2 b j) + ∑ k : Fin 1024, x (ix2 b k) * W (ix2 k j) := rfl

/-- The new trace read by coordinates. -/
theorem trace_ix3 (x : FVec Ideal SState .f32) (E : FVec Ideal STrace .f32) (b : Fin 32) (i : Fin 1024) (j : Fin 1024) :
    trace x E (ix3 b i j) = decay * E (ix3 b i j) + x (ix2 b i) := rfl

end Cert.Cell

end
-- ==== Proof.StateRegion.lean ====
/-
  The first region: one grid point whose blocks are the whole arrays.

  The input, the weights and the old state are staged whole, the body runs once, and its two stores — the new state and
  its hyperbolic tangent — are written back whole. So after the region the new-state array holds the body's first payload
  of the three argument arrays as the region found them, and the output array holds the second payload. Stated for any
  float instance and for any contents `V` the region is entered from.
-/
import proofs.«140399_j61151744360733_1_alg».proof.Proof.Gen.KernelIdeal.Frame
import Idealize.ShloMosaic.Lib.Pipeline.Value

noncomputable section

namespace Cert.KernelIdeal.StateRegion

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-! ## Each input block is its whole array -/

theorem offs_x : (fun a => win0_0.index t0_0 a * main_arg0.ty.shape.size a) = fun _ => 0 := funext fun a => by fin_cases a <;> decide
theorem offs_W : (fun a => win0_1.index t0_0 a * main_arg1.ty.shape.size a) = fun _ => 0 := funext fun a => by fin_cases a <;> decide
theorem offs_u : (fun a => win0_2.index t0_0 a * main_arg2.ty.shape.size a) = fun _ => 0 := funext fun a => by fin_cases a <;> decide
theorem offs_s : (fun a => win0_3.index t0_0 a * main_v0_0.ty.shape.size a) = fun _ => 0 := funext fun a => by fin_cases a <;> decide
theorem offs_u' : (fun a => win0_4.index t0_0 a * main_v0_1.ty.shape.size a) = fun _ => 0 := funext fun a => by fin_cases a <;> decide

/-- The input's one block is the input array. -/
theorem block_x (c : Dev nD) : iblk0 V c 0 t0_0 = V c main_arg0 := by
  unfold iblk0
  exact Memref.read_access_unit_zero (Elt F) main_arg0 offs_x (fun a => by rw [congrFun offs_x a]; simp) (V c main_arg0)

/-- The weights' one block is the weight array. -/
theorem block_W (c : Dev nD) : iblk0 V c 1 t0_0 = V c main_arg1 := by
  unfold iblk0
  exact Memref.read_access_unit_zero (Elt F) main_arg1 offs_W (fun a => by rw [congrFun offs_W a]; simp) (V c main_arg1)

/-- The old state's one block is the state array. -/
theorem block_u (c : Dev nD) : iblk0 V c 2 t0_0 = V c main_arg2 := by
  unfold iblk0
  exact Memref.read_access_unit_zero (Elt F) main_arg2 offs_u (fun a => by rw [congrFun offs_u a]; simp) (V c main_arg2)

/-! ## What the one point writes back -/

/-- The new-state window's write-back is the whole of the body's first payload of the three arrays. -/
theorem flushed_state (c : Dev nD) (t : Fin cfg0.N) :
    (dat0 V c).flushed 4 t = ((cfg0.win 4).blk t).view.read (Elt F) (k0_pay1 (V c main_arg0) (V c main_arg1) (V c main_arg2)) := by
  obtain rfl := fin_N0 t
  show (cfg0.win 4).cut (grid0.coords t0_0) ((dat0 V c).after 4 t0_0) = _
  rw [after0_4]
  unfold out0_4
  rw [View.canon_unit_zero zeros2]
  simp only [View.ld_unit_zero (S := S32x1024) zeros2, View.ld_unit_zero (S := S1024x1024) zeros2]
  rw [block_x, block_W, block_u]
  exact (Memref.read_access_unit_zero (Elt F) main_v0_1 offs_u' (fun a => by rw [congrFun offs_u' a]; simp) _).symm

/-- The output window's write-back is the whole of the body's second payload. -/
theorem flushed_output (c : Dev nD) (t : Fin cfg0.N) :
    (dat0 V c).flushed 3 t = ((cfg0.win 3).blk t).view.read (Elt F) (k0_pay2 (V c main_arg0) (V c main_arg1) (V c main_arg2)) := by
  obtain rfl := fin_N0 t
  show (cfg0.win 3).cut (grid0.coords t0_0) ((dat0 V c).after 3 t0_0) = _
  rw [after0_3]
  unfold out0_3
  rw [View.canon_unit_zero zeros2]
  simp only [View.ld_unit_zero (S := S32x1024) zeros2, View.ld_unit_zero (S := S1024x1024) zeros2]
  rw [block_x, block_W, block_u]
  exact (Memref.read_access_unit_zero (Elt F) main_v0_0 offs_s (fun a => by rw [congrFun offs_s a]; simp) _).symm

/-! ## The one block covers its array -/

theorem cover_state (i : S32x1024.Idx) : i ∈ ((cfg0.win 4).blk t0_0).view.set := by
  show i ∈ ((View.whole main_v0_1).slice (win0_4.rect t0_0)).set
  rw [View.set_slice_whole, Rect.mem_set_unit]
  intro a
  have h0 : (i 0 : Nat) < 32 := (i 0).isLt
  have h1 : (i 1 : Nat) < 1024 := (i 1).isLt
  match a with
  | ⟨0, _⟩ => show win0_4.index t0_0 0 * win0_4.size 0 ≤ (i 0 : Nat) ∧ (i 0 : Nat) < win0_4.index t0_0 0 * win0_4.size 0 + win0_4.xsize (grid0.coords t0_0) 0
              rw [show win0_4.index t0_0 0 * win0_4.size 0 = 0 from by decide +kernel, show win0_4.xsize (grid0.coords t0_0) 0 = 32 from by decide +kernel]; omega
  | ⟨1, _⟩ => show win0_4.index t0_0 1 * win0_4.size 1 ≤ (i 1 : Nat) ∧ (i 1 : Nat) < win0_4.index t0_0 1 * win0_4.size 1 + win0_4.xsize (grid0.coords t0_0) 1
              rw [show win0_4.index t0_0 1 * win0_4.size 1 = 0 from by decide +kernel, show win0_4.xsize (grid0.coords t0_0) 1 = 1024 from by decide +kernel]; omega

theorem cover_output (i : S32x1024.Idx) : i ∈ ((cfg0.win 3).blk t0_0).view.set := by
  show i ∈ ((View.whole main_v0_0).slice (win0_3.rect t0_0)).set
  rw [View.set_slice_whole, Rect.mem_set_unit]
  intro a
  have h0 : (i 0 : Nat) < 32 := (i 0).isLt
  have h1 : (i 1 : Nat) < 1024 := (i 1).isLt
  match a with
  | ⟨0, _⟩ => show win0_3.index t0_0 0 * win0_3.size 0 ≤ (i 0 : Nat) ∧ (i 0 : Nat) < win0_3.index t0_0 0 * win0_3.size 0 + win0_3.xsize (grid0.coords t0_0) 0
              rw [show win0_3.index t0_0 0 * win0_3.size 0 = 0 from by decide +kernel, show win0_3.xsize (grid0.coords t0_0) 0 = 32 from by decide +kernel]; omega
  | ⟨1, _⟩ => show win0_3.index t0_0 1 * win0_3.size 1 ≤ (i 1 : Nat) ∧ (i 1 : Nat) < win0_3.index t0_0 1 * win0_3.size 1 + win0_3.xsize (grid0.coords t0_0) 1
              rw [show win0_3.index t0_0 1 * win0_3.size 1 = 0 from by decide +kernel, show win0_3.xsize (grid0.coords t0_0) 1 = 1024 from by decide +kernel]; omega

/-! ## The arrays after the region -/

/-- After the region the new-state array is the body's first payload of the three arrays as entered. -/
theorem state_array (c : Dev nD) :
    (dat0 V c).arrAt 4 cfg0.N = k0_pay1 (V c main_arg0) (V c main_arg1) (V c main_arg2) :=
  (dat0 V c).arrAt_eq_of_cover 4 _ (fun t _ => flushed_state V c t) fun i => ⟨t0_0, flush0_4 t0_0, cover_state i⟩

/-- After the region the output array is the body's second payload: the hyperbolic tangent of the first. -/
theorem output_array (c : Dev nD) :
    (dat0 V c).arrAt 3 cfg0.N = k0_pay2 (V c main_arg0) (V c main_arg1) (V c main_arg2) :=
  (dat0 V c).arrAt_eq_of_cover 3 _ (fun t _ => flushed_output V c t) fun i => ⟨t0_0, flush0_3 t0_0, cover_output i⟩

end Cert.KernelIdeal.StateRegion

end
-- ==== Proof.LibLastAxis.lean ====
/-
  A value repeated along a new last axis, read at an entry.

  A rank-2 array `[a, b]` is first given a last axis of extent one (`[a, b, 1]`, the same entries in the same row-major
  order) and then repeated along it (`[a, b, c]`). Read at `(i, j, k)` the result is the array's entry `(i, j)`, whatever `k`.
  The two lemmas read the two steps; they hold for every element type and all extents.
-/
import Idealize.ShloMosaic.Lib.Pipeline.Value
import Idealize.ShloMosaic.Lib.ValueIdx

namespace Cert.LastAxis

open Idealize.ShloMosaic Idealize.ShloMosaic.ValueIdx

variable {α : Type}

/-- An `[a, b]` array cast to `[a, b, 1]` reads, at `(i, j, u)`, the operand at `(i, j)`: the row-major positions agree
    because the only value of `u` is `0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array repeated to `[a, b, c]` reads, at `(i, j, k)`, the operand at `(i, j, 0)`. On an axis of extent one
    the operand's coordinate is `0` in any case, so the two readings of such an axis agree. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j ⟨0, Nat.one_pos⟩) :=
  broadcastTo_apply v h _ _ (fun d => match d with
    | ⟨0, _⟩ => by
        show i.val = if a = 1 then 0 else i.val
        split_ifs with ha
        · have := i.isLt; omega
        · rfl
    | ⟨1, _⟩ => by
        show j.val = if b = 1 then 0 else j.val
        split_ifs with hb
        · have := j.isLt; omega
        · rfl
    | ⟨2, _⟩ => by
        show 0 = if (1 : ℕ) = 1 then 0 else k.val
        rw [if_pos rfl])

end Cert.LastAxis
-- ==== Proof.TraceRegion.lean ====
/-
  The second region: the trace update over a grid of 8 × 4 points.

  Point `(p, q)` stages rows `128 p … 128 p + 127` of the input (all 32 batch rows) and the block of the trace with the same
  rows on its middle axis and columns `256 q … 256 q + 255` on its last; the body multiplies the trace block by the decay,
  adds the input block repeated along the last axis, and the result is written back to the same block of the new trace.
  The 32 blocks tile the new trace, and each is the corresponding block of ONE array: the decayed old trace plus the input
  repeated along the last axis. Stated at the ideal values, for any contents `V` the region is entered from.
-/
import proofs.«140399_j61151744360733_1_alg».proof.Proof.Gen.KernelIdeal.Frame
import proofs.«140399_j61151744360733_1_alg».proof.Proof.Cell
import proofs.«140399_j61151744360733_1_alg».proof.Proof.LibLastAxis
import Idealize.ShloMosaic.Lib.Pipeline.Value
import Idealize.ShloMosaic.Lib.ValueIdx

noncomputable section

namespace Cert.KernelIdeal.TraceRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The body's arithmetic at an entry of the block -/

/-- At entry `y = (b, i, j)` of the block the body's payload is the decay times the trace block's entry plus the input
    block's entry `(b, i)`: the input block gets a last axis of extent one and is repeated along it. -/
theorem payload_at (x0 : Vec Ideal S32x128 .f32) (x1 : Vec Ideal S32x128x256 .f32) (y : S32x128x256.Idx) :
    k1_pay1 x0 x1 y = Cell.decay * x1 y + x0 (ix2 (y 0) (y 1)) := by
  unfold k1_pay1
  show Cell.decay * x1 y + broadcastTo S32x128x256 (shapeCast S32x128x1 (shapeCast S32x128x1 x0 _) _) _ y = _
  refine congrArg (Cell.decay * x1 y + ·) ?_
  rw [shapeCast_self, eq_ix3 y]
  exact (Cert.LastAxis.broadcastTo_ab1_abc_apply _ _ (y 0) (y 1) (y 2)).trans
    (Cert.LastAxis.shapeCast_ab_ab1_apply x0 _ (y 0) (y 1) ⟨0, Nat.one_pos⟩)

/-! ## The blocks, read off the arrays -/

/-- The printed index maps over the grid: the trace's input and output windows move together, the input's window follows
    them on the shared axis, and nobody moves on the batch axis. -/
theorem index_facts : ∀ t : Fin cfg1.N,
    win1_0.index t (0 : Fin 2) = 0 ∧ win1_0.index t (1 : Fin 2) = win1_2.index t (1 : Fin 3)
    ∧ win1_1.index t (0 : Fin 3) = 0 ∧ win1_1.index t (1 : Fin 3) = win1_2.index t (1 : Fin 3) ∧ win1_1.index t (2 : Fin 3) = win1_2.index t (2 : Fin 3)
    ∧ win1_2.index t (0 : Fin 3) = 0 :=
  (by decide +kernel : ∀ t : Fin grid1.N, _)

/-- Every pair of a row block and a column block is some point's. -/
theorem index_onto : ∀ (p : Fin 8) (q : Fin 4), ∃ t : Fin cfg1.N, win1_2.index t = ![0, p.val, q.val] :=
  (by decide +kernel : ∀ (p : Fin 8) (q : Fin 4), ∃ t : Fin grid1.N, win1_2.index t = ![0, p.val, q.val])

/-- The old trace's block at point `t`, at `y`, is the old trace where the new trace's block puts `y`. -/
theorem block_E (c : Dev nD) (t : Fin cfg1.N) (y : S32x128x256.Idx) :
    (iblk1 V c 1 t : Vec Ideal S32x128x256 .f32) y = V c main_arg3 (((cfg1.win 2).blk t).view.emb y) := by
  obtain ⟨-, -, e0, e1, e2, e5⟩ := index_facts t
  show V c main_arg3 (((cfg1.win 1).blk t).view.emb y) = V c main_arg3 (((cfg1.win 2).blk t).view.emb y)
  refine congrArg (V c main_arg3) (funext fun a => Fin.ext ?_)
  match a with
  | ⟨0, _⟩ => show win1_1.index t (0 : Fin 3) * 32 + 1 * (y 0).val = win1_2.index t (0 : Fin 3) * 32 + 1 * (y 0).val; omega
  | ⟨1, _⟩ => show win1_1.index t (1 : Fin 3) * 128 + 1 * (y 1).val = win1_2.index t (1 : Fin 3) * 128 + 1 * (y 1).val; omega
  | ⟨2, _⟩ => show win1_1.index t (2 : Fin 3) * 256 + 1 * (y 2).val = win1_2.index t (2 : Fin 3) * 256 + 1 * (y 2).val; omega

/-- The input's block at point `t`, at the first two coordinates of `y`, is the input at the first two coordinates of
    where the new trace's block puts `y`. -/
theorem block_x (c : Dev nD) (t : Fin cfg1.N) (y : S32x128x256.Idx) :
    (iblk1 V c 0 t : Vec Ideal S32x128 .f32) (ix2 (y 0) (y 1))
      = V c main_arg0 (ix2 ((((cfg1.win 2).blk t).view.emb y) 0) ((((cfg1.win 2).blk t).view.emb y) 1)) := by
  obtain ⟨e0, e1, -, -, -, e5⟩ := index_facts t
  show V c main_arg0 (((cfg1.win 0).blk t).view.emb (ix2 (y 0) (y 1))) = _
  refine congrArg (V c main_arg0) (funext fun a => Fin.ext ?_)
  match a with
  | ⟨0, _⟩ => show win1_0.index t (0 : Fin 2) * 32 + 1 * (y 0).val = win1_2.index t (0 : Fin 3) * 32 + 1 * (y 0).val; omega
  | ⟨1, _⟩ => show win1_0.index t (1 : Fin 2) * 128 + 1 * (y 1).val = win1_2.index t (1 : Fin 3) * 128 + 1 * (y 1).val; omega

/-! ## What a point writes back, the cover, the array -/

/-- What point `t` writes back is block `t` of the new trace of the two arrays as the region found them. -/
theorem flushed_trace (c : Dev nD) (t : Fin cfg1.N) :
    (dat1 V c).flushed 2 t = ((cfg1.win 2).blk t).view.read (Elt Ideal) (Cell.trace (V c main_arg0) (V c main_arg3)) := by
  show (cfg1.win 2).cut (grid1.coords t) ((dat1 V c).after 2 t) = _
  rw [after1_2]
  unfold out1_2
  rw [View.canon_unit_zero zeros3]
  simp only [View.ld_unit_zero (S := S32x128) zeros2, View.ld_unit_zero (S := S32x128x256) zeros3]
  funext y
  show k1_pay1 (iblk1 V c 0 t) (iblk1 V c 1 t) y
    = Cell.decay * V c main_arg3 (((cfg1.win 2).blk t).view.emb y)
      + V c main_arg0 (ix2 ((((cfg1.win 2).blk t).view.emb y) 0) ((((cfg1.win 2).blk t).view.emb y) 1))
  refine (payload_at (iblk1 V c 0 t) (iblk1 V c 1 t) y).trans ?_
  rw [block_E V c t y, block_x V c t y]

/-- An entry of the new trace is in point `t`'s block iff each coordinate is in the block's range on its axis. -/
theorem mem_block (t : Fin cfg1.N) (i : S32x1024x1024.Idx) :
    i ∈ ((cfg1.win 2).blk t).view.set ↔ ∀ a : Fin 3, win1_2.index t a * S32x128x256.size a ≤ (i a).val ∧ (i a).val < win1_2.index t a * S32x128x256.size a + S32x128x256.size a := by
  show i ∈ ((View.whole main_v1).slice (win1_2.rect t)).set ↔ _
  rw [View.set_slice_whole, Rect.mem_set_unit]
  exact Iff.rfl

/-- Every entry of the new trace is in some point's block: the point of row block `i 1 / 128` and column block `i 2 / 256`. -/
theorem covered (i : S32x1024x1024.Idx) : ∃ t : Fin cfg1.N, (cfg1.win 2).flush t = true ∧ i ∈ ((cfg1.win 2).blk t).view.set := by
  have hi0 : (i 0).val < 32 := (i 0).isLt
  have hi1 : (i 1).val < 1024 := (i 1).isLt
  have hi2 : (i 2).val < 1024 := (i 2).isLt
  obtain ⟨t, ht⟩ := index_onto ⟨(i 1).val / 128, by omega⟩ ⟨(i 2).val / 256, by omega⟩
  have q0 : win1_2.index t (0 : Fin 3) = 0 := congrFun ht 0
  have q1 : win1_2.index t (1 : Fin 3) = (i 1).val / 128 := congrFun ht 1
  have q2 : win1_2.index t (2 : Fin 3) = (i 2).val / 256 := congrFun ht 2
  refine ⟨t, flush1_2 t, ?_⟩
  rw [mem_block]
  intro a
  match a with
  | ⟨0, _⟩ => show win1_2.index t (0 : Fin 3) * 32 ≤ (i 0).val ∧ (i 0).val < win1_2.index t (0 : Fin 3) * 32 + 32; omega
  | ⟨1, _⟩ => show win1_2.index t (1 : Fin 3) * 128 ≤ (i 1).val ∧ (i 1).val < win1_2.index t (1 : Fin 3) * 128 + 128; omega
  | ⟨2, _⟩ => show win1_2.index t (2 : Fin 3) * 256 ≤ (i 2).val ∧ (i 2).val < win1_2.index t (2 : Fin 3) * 256 + 256; omega

/-- After the region the new-trace array is the new trace of the input and the old trace as the region found them. -/
theorem trace_array (c : Dev nD) :
    (dat1 V c).arrAt 2 cfg1.N = Cell.trace (V c main_arg0) (V c main_arg3) :=
  (dat1 V c).arrAt_eq_of_cover 2 _ (fun t _ => flushed_trace V c t) covered

end Cert.KernelIdeal.TraceRegion

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KernelValue.lean ====
/-
  The kernel computes the cell's step.

  The first region leaves the body's two payloads of the launch arrays in the new-state and output arrays; at the ideal
  values the first payload is the new state of the specification — the two operands' change of format is the identity, and
  a product into a zero accumulator is, entry by entry, the sum over the shared axis — and the second its hyperbolic tangent.
  The second region finds the input and the old trace still as launched (the first region only stages the input and does
  not touch the trace) and leaves the new trace of the specification. Neither region's results are touched afterwards, so
  they are what the run ends with.
-/
import proofs.«140399_j61151744360733_1_alg».proof.Proof.KernelRun
import proofs.«140399_j61151744360733_1_alg».proof.Proof.StateRegion
import proofs.«140399_j61151744360733_1_alg».proof.Proof.TraceRegion
import proofs.«140399_j61151744360733_1_alg».proof.Proof.LibDot
import proofs.«140399_j61151744360733_1_alg».proof.Proof.Cell
import Idealize.ShloMosaic.PureOps.Ideal.Laws

noncomputable section

namespace Cert.KernelIdeal.Results

open Cert.KernelIdeal Cert.KernelIdeal.Gen Idealize.ShloMosaic Idealize.ShloMosaic.TcCoe Idealize.SL.Sem
open Idealize.ShloMosaic.ValueIdx
open Idealize.ShloMosaic.Pipeline (Dat)

/-! ## The first region's payloads at the ideal values -/

/-- The body's first payload of whole arrays is the new state. -/
theorem payload_state (x : Vec Ideal S32x1024 .f32) (W : Vec Ideal S1024x1024 .f32) (u : Vec Ideal S32x1024 .f32) :
    k0_pay1 x W u = Cell.state x W u := by
  funext i
  obtain ⟨p, q, rfl⟩ : ∃ (p : Fin 32) (q : Fin 1024), i = ix2 p q := ⟨i 0, i 1, eq_ix2 i⟩
  rw [Cell.state_ix2]
  unfold k0_pay1
  show Cell.decay * u (ix2 p q) + _ = _
  refine congrArg (Cell.decay * u (ix2 p q) + ·) ?_
  exact Cert.GNN.matmul_plain_zero_apply (M := 32) (K := 1024) (N := 1024) none _ _ p q

/-- The body's second payload is the output. -/
theorem payload_output (x : Vec Ideal S32x1024 .f32) (W : Vec Ideal S1024x1024 .f32) (u : Vec Ideal S32x1024 .f32) :
    k0_pay2 x W u = Cell.output x W u := by
  unfold k0_pay2
  rw [payload_state]
  rfl

/-! ## The results after the run -/

variable (m : (ℓ : Loc nD τ sig) → Buf (Elt Ideal) ℓ) (ρ : Dev nD → PrngReg)

/-- The second region finds the input as launched: the first region stages it and never writes it back. -/
theorem entry_x (c : Dev nD) : V1 m ρ c main_arg0 = m ((c : Thread nD τ).loc main_arg0) :=
  (W1_arr m ρ c 0).trans (((dat0 (V0 m ρ) c).arrAt_in 0 rfl _).trans (A_eq0 (V0 m ρ) c 0))

/-- The second region finds the old trace as launched: it is no array of the first region. -/
theorem entry_E (c : Dev nD) : V1 m ρ c main_arg3 = m ((c : Thread nD τ).loc main_arg3) :=
  W1_of_ne m ρ c main_arg3 (by decide)

/-- The new-state array at the end: the second region does not touch it, the first leaves the new state there. -/
theorem result_state (c : Dev nD) :
    W2 m ρ c (Proc.devRef .tc main_v0_1)
      = Cell.state (m ((c : Thread nD τ).loc main_arg0)) (m ((c : Thread nD τ).loc main_arg1)) (m ((c : Thread nD τ).loc main_arg2)) :=
  calc W2 m ρ c (Proc.devRef .tc main_v0_1)
    _ = W1 m ρ c (Proc.devRef .tc main_v0_1) := W2_of_ne m ρ c main_v0_1 (by decide)
    _ = (dat0 (V0 m ρ) c).arrAt 4 cfg0.N := W1_arr m ρ c 4
    _ = k0_pay1 (V0 m ρ c main_arg0) (V0 m ρ c main_arg1) (V0 m ρ c main_arg2) := StateRegion.state_array (V0 m ρ) c
    _ = _ := payload_state _ _ _

/-- The output array at the end. -/
theorem result_output (c : Dev nD) :
    W2 m ρ c (Proc.devRef .tc main_v0_0)
      = Cell.output (m ((c : Thread nD τ).loc main_arg0)) (m ((c : Thread nD τ).loc main_arg1)) (m ((c : Thread nD τ).loc main_arg2)) :=
  calc W2 m ρ c (Proc.devRef .tc main_v0_0)
    _ = W1 m ρ c (Proc.devRef .tc main_v0_0) := W2_of_ne m ρ c main_v0_0 (by decide)
    _ = (dat0 (V0 m ρ) c).arrAt 3 cfg0.N := W1_arr m ρ c 3
    _ = k0_pay2 (V0 m ρ c main_arg0) (V0 m ρ c main_arg1) (V0 m ρ c main_arg2) := StateRegion.output_array (V0 m ρ) c
    _ = _ := payload_output _ _ _

/-- The new-trace array at the end. -/
theorem result_trace (c : Dev nD) :
    W2 m ρ c (Proc.devRef .tc main_v1)
      = Cell.trace (m ((c : Thread nD τ).loc main_arg0)) (m ((c : Thread nD τ).loc main_arg3)) :=
  calc W2 m ρ c (Proc.devRef .tc main_v1)
    _ = (dat1 (V1 m ρ) c).arrAt 2 cfg1.N := W2_arr m ρ c 2
    _ = Cell.trace (V1 m ρ c main_arg0) (V1 m ρ c main_arg3) := TraceRegion.trace_array (V1 m ρ) c
    _ = _ := by rw [entry_x, entry_E]

/-- Every weakly fair execution of the kernel's program terminates, nothing faulting, with the output, the new state and
    the new trace of the launch arrays in its three results and the arguments unchanged. -/
theorem run : θ_run defs (onTc (τ := τ) (main (F := Ideal))) ⟨m, fun _ => 0, ρ⟩ (fun r => ∀ c : Dev nD,
      r.2.mem ((c.tc : Thread nD τ).loc main_v0_0)
        = Cell.output (m ((c : Thread nD τ).loc main_arg0)) (m ((c : Thread nD τ).loc main_arg1)) (m ((c : Thread nD τ).loc main_arg2))
      ∧ r.2.mem ((c.tc : Thread nD τ).loc main_v0_1)
        = Cell.state (m ((c : Thread nD τ).loc main_arg0)) (m ((c : Thread nD τ).loc main_arg1)) (m ((c : Thread nD τ).loc main_arg2))
      ∧ r.2.mem ((c.tc : Thread nD τ).loc main_v1)
        = Cell.trace (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c).1.trans (result_output m ρ c), (h c).2.1.trans (result_state m ρ c), (h c).2.2.1.trans (result_trace m ρ c), (h c).2.2.2⟩)
    (Cert.KernelIdeal.Named.run m ρ)

end Cert.KernelIdeal.Results

end
-- ==== Proof.RefValue.lean ====
/-
  The reference computes the cell's step.

  Its program is eleven array operations; read one at a time they are: the decay repeated to the state's shape times the
  old state, plus the product of the input and the weights, then the hyperbolic tangent of that; and the decay repeated
  to the trace's shape times the old trace, plus the input given a last axis of extent one and repeated along it. Entry by
  entry these are the new state, the output and the new trace of the specification. The product is read as a sum over the
  shared axis; nothing else is more than unfolding.
-/
import proofs.«140399_j61151744360733_1_alg».proof.Proof.Gen.ReferenceIdeal.Read
import proofs.«140399_j61151744360733_1_alg».proof.Proof.Cell

noncomputable section

namespace Cert.ReferenceIdeal.RefValue

open Cert.ReferenceIdeal Cert.ReferenceIdeal.Gen Cert.ReferenceIdeal.Read
open Idealize.ShloMosaic Idealize.ShloMosaic.ValueIdx

/-- The product's left operand at output entry `i` and contraction position `k` is read at `(i 0, k)`. -/
theorem left_index (i : S32x1024.Idx) (k : Fin 1024) : lidx_main_v2 i k = ix2 (i 0) k :=
  funext fun a => Fin.ext (by match a with | ⟨0, _⟩ => rfl | ⟨1, _⟩ => rfl)

/-- Its right operand is read at `(k, i 1)`. -/
theorem right_index (i : S32x1024.Idx) (k : Fin 1024) : ridx_main_v2 i k = ix2 k (i 1) :=
  funext fun a => Fin.ext (by match a with | ⟨0, _⟩ => rfl | ⟨1, _⟩ => rfl)

/-- The two repetitions of the input, composed, read entry `(y 0, y 1)` of the input at entry `y` of the trace. -/
theorem repeat_index (y : S32x1024x1024.Idx) : idx_main_v7 (idx_main_v8 y) = ix2 (y 0) (y 1) :=
  funext fun a => Fin.ext (by match a with | ⟨0, _⟩ => rfl | ⟨1, _⟩ => rfl)

/-- The reference's new state is the specification's. -/
theorem state_eq (x : (⟨S32x1024, .f32⟩ : BufTy).Contents (Elt Ideal)) (W : (⟨S1024x1024, .f32⟩ : BufTy).Contents (Elt Ideal))
    (u : (⟨S32x1024, .f32⟩ : BufTy).Contents (Elt Ideal)) :
    val_main_v3 (F := Ideal) x W u = Cell.state x W u := by
  funext i
  rw [val_main_v3_apply, val_main_v1_apply, val_main_v0_apply, val_main_cst_apply, val_main_v2_apply]
  simp only [left_index, right_index]
  rfl

/-- The reference's output is the specification's: the host's hyperbolic tangent is the same function of an extended real. -/
theorem output_eq (x : (⟨S32x1024, .f32⟩ : BufTy).Contents (Elt Ideal)) (W : (⟨S1024x1024, .f32⟩ : BufTy).Contents (Elt Ideal))
    (u : (⟨S32x1024, .f32⟩ : BufTy).Contents (Elt Ideal)) :
    val_main_v4 (F := Ideal) x W u = Cell.output x W u := by
  funext i
  rw [val_main_v4_apply, state_eq]
  rfl

/-- The reference's new trace is the specification's. -/
theorem trace_eq (x : (⟨S32x1024, .f32⟩ : BufTy).Contents (Elt Ideal)) (E : (⟨S32x1024x1024, .f32⟩ : BufTy).Contents (Elt Ideal)) :
    val_main_v9 (F := Ideal) x E = Cell.trace x E := by
  funext y
  rw [val_main_v9_apply, val_main_v6_apply, val_main_v5_apply, val_main_cst_0_apply, val_main_v8_apply, val_main_v7_apply,
    repeat_index]
  rfl

end Cert.ReferenceIdeal.RefValue

end
-- ==== Proof.lean ====
/-
  One step of a leaky recurrent cell with its eligibility trace: a kernel of two regions against its array-level reference.

  Both programs compute, from an input `x`, weights `W`, a state `u` and a trace `E`,
    the new state  `u' = β · u + x W`,   the output  `s = tanh u'`,   the new trace  `E'[b, i, j] = β · E[b, i, j] + x[b, i]`,
  with the same decay word `β`. The kernel does the first two in one region whose single block is the whole arrays (the
  product into a zero accumulator, its operands first changed to a shorter float format) and the third in a second region
  over 8 × 4 blocks of the trace; the reference does all three as whole-array operations. At the ideal values the change
  of format is the identity and both products are the sum over the shared axis, so the two programs' results are the same
  three functions of the arguments (`Cert.Cell`): the kernel's by `Cert.KernelIdeal.Results.run`, the reference's by its run
  read one operation at a time (`Cert.ReferenceIdeal.RefValue`). Both sides add the decayed term to the other in the same
  order, so no law of arithmetic beyond that is used and the inputs' finiteness is never opened.
  The three frames are the programs' runs with the results dropped; the idealization rewrote nothing, so its claim is `True`.
-/
import proofs.«140399_j61151744360733_1_alg».proof.Defs
import proofs.«140399_j61151744360733_1_alg».proof.Proof.Gen.Kernel
import proofs.«140399_j61151744360733_1_alg».proof.Proof.Gen.Kernel.Frame
import proofs.«140399_j61151744360733_1_alg».proof.Proof.Gen.KernelIdeal
import proofs.«140399_j61151744360733_1_alg».proof.Proof.Gen.KernelIdeal.Frame
import proofs.«140399_j61151744360733_1_alg».proof.Proof.Gen.ReferenceIdeal
import proofs.«140399_j61151744360733_1_alg».proof.Proof.Gen.ReferenceIdeal.Run
import proofs.«140399_j61151744360733_1_alg».proof.Proof.Gen.ReferenceIdeal.Read
import proofs.«140399_j61151744360733_1_alg».proof.Proof.Gen.Pre_finite_inputs
import proofs.«140399_j61151744360733_1_alg».proof.Proof.Cell
import proofs.«140399_j61151744360733_1_alg».proof.Proof.KernelValue
import proofs.«140399_j61151744360733_1_alg».proof.Proof.RefValue

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference's run, its results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the four arguments both programs end with the output, the new state and the new trace of
    those arguments: the kernel by its two regions' values, the reference by its operations read in order. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun _ h c => ?_) (Cert.ReferenceIdeal.Value.run (F := Ideal) m' ρ')
  obtain ⟨hs, hu, hE, hargs⟩ := h c
  obtain ⟨e0, e1, e2, e3⟩ := hagree c
  refine ⟨hs.trans ?_, hu.trans ?_, hE.trans ?_, hargs⟩
  · rw [Cert.ReferenceIdeal.Read.val_main_v4_eq, Cert.ReferenceIdeal.RefValue.output_eq, e0, e1, e2]
  · rw [Cert.ReferenceIdeal.Read.val_main_v3_eq, Cert.ReferenceIdeal.RefValue.state_eq, e0, e1, e2]
  · rw [Cert.ReferenceIdeal.Read.val_main_v9_eq, Cert.ReferenceIdeal.RefValue.trace_eq, e0, e3]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
